-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x32x96x96x96 : Shape := ⟨5, ![2, 32, 96, 96, 96]⟩
abbrev S1024x1024 : Shape := ⟨2, ![1024, 1024]⟩
abbrev S1024 : Shape := ⟨1, ![1024]⟩
abbrev S_ : Shape := ⟨0, ![]⟩

class Facts : Prop where
  bcast_S_S2x32x96x96x96 : S_.BroadcastsInDim S2x32x96x96x96 (![] : Fin 0 → Fin S2x32x96x96x96.rank)
  reducesTo_S2x32x96x96x96_S_d0_1_2_3_4 : S2x32x96x96x96.ReducesTo [0, 1, 2, 3, 4] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S2x32x96x96x96 .f32) (main_arg1 : FVec F S1024x1024 .f32) (main_arg2 : FVec F S1024 .f32) : IVec S_ 1 :=
  let main_v0 : FVec F S2x32x96x96x96 .f32 := Host.absf main_arg0
  let main_cst : FVec F S_ .f32 := constant S_ .f32 0x7F800000#32
  let main_v1 : FVec F S2x32x96x96x96 .f32 := broadcastInDim S2x32x96x96x96 ![] bcast_S_S2x32x96x96x96 main_cst
  let main_v2 : IVec S2x32x96x96x96 1 := cmpf .olt main_v0 main_v1
  let main_c : IVec S_ 1 := constantI S_ 1 1#1
  let main_v3 : IVec S_ 1 := (fun x v => Host.reduce IntOp.andi x v reducesTo_S2x32x96x96x96_S_d0_1_2_3_4 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S2x32x96x96x96 : Shape := ⟨5, ![2, 32, 96, 96, 96]⟩
abbrev S1024x1024 : Shape := ⟨2, ![1024, 1024]⟩
abbrev S1024 : Shape := ⟨1, ![1024]⟩
abbrev S2x32x64x24x24x24 : Shape := ⟨6, ![2, 32, 64, 24, 24, 24]⟩
abbrev S2x24x24x24x64x32 : Shape := ⟨6, ![2, 24, 24, 24, 64, 32]⟩
abbrev S2x24x24x24x16x32 : Shape := ⟨6, ![2, 24, 24, 24, 16, 32]⟩
abbrev S2x24x24x24x48x32 : Shape := ⟨6, ![2, 24, 24, 24, 48, 32]⟩
abbrev S2x24x24x24x2x1024 : Shape := ⟨6, ![2, 24, 24, 24, 2, 1024]⟩
abbrev S55296x1024 : Shape := ⟨2, ![55296, 1024]⟩
abbrev S1x1024 : Shape := ⟨2, ![1, 1024]⟩

abbrev nBuf : Space → Nat
  | .hbm => 20
  | .vmem => 6
  | .smem => 0
  | _ => 0

abbrev bufTy : (tb : Table) → Fin (tcTables nBuf tb) → BufTy
  | .hbm, ⟨0, _⟩ => ⟨S2x32x96x96x96, .f32⟩
  | .hbm, ⟨1, _⟩ => ⟨S1024x1024, .f32⟩
  | .hbm, ⟨2, _⟩ => ⟨S1024, .f32⟩
  | .hbm, ⟨3, _⟩ => ⟨S2x32x64x24x24x24, .f32⟩
  | .hbm, ⟨4, _⟩ => ⟨S2x24x24x24x64x32, .f32⟩
  | .hbm, ⟨5, _⟩ => ⟨S2x24x24x24x16x32, .f32⟩
  | .hbm, ⟨6, _⟩ => ⟨S2x24x24x24x48x32, .f32⟩
  | .hbm, ⟨7, _⟩ => ⟨S2x24x24x24x64x32, .f32⟩
  | .hbm, ⟨8, _⟩ => ⟨S2x24x24x24x2x1024, .f32⟩
  | .hbm, ⟨9, _⟩ => ⟨S55296x1024, .f32⟩
  | .hbm, ⟨10, _⟩ => ⟨S1024x1024, .f32⟩
  | .hbm, ⟨11, _⟩ => ⟨S1x1024, .f32⟩
  | .hbm, ⟨12, _⟩ => ⟨S55296x1024, .f32⟩
  | .hbm, ⟨13, _⟩ => ⟨S2x24x24x24x2x1024, .f32⟩
  | .hbm, ⟨14, _⟩ => ⟨S2x24x24x24x64x32, .f32⟩
  | .hbm, ⟨15, _⟩ => ⟨S2x24x24x24x48x32, .f32⟩
  | .hbm, ⟨16, _⟩ => ⟨S2x24x24x24x16x32, .f32⟩
  | .hbm, ⟨17, _⟩ => ⟨S2x24x24x24x64x32, .f32⟩
  | .hbm, ⟨18, _⟩ => ⟨S2x32x64x24x24x24, .f32⟩
  | .hbm, ⟨19, _⟩ => ⟨S2x32x96x96x96, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S2x32x96x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call1_v0 : Ref sig .tc := ⟨.hbm, 15, rfl⟩
abbrev main_call1_v1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![54], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2x32x96x96x96_S2x32x64x24x24x24 : S2x32x96x96x96.ShapeCasts S2x32x64x24x24x24
  transposes_S2x32x64x24x24x24_S2x24x24x24x64x32_0_3_4_5_2_1 : S2x32x64x24x24x24.Transposes [0, 3, 4, 5, 2, 1] S2x24x24x24x64x32
  slices_S2x24x24x24x64x32_S2x24x24x24x16x32_0_0_0_0_48_0 : S2x24x24x24x64x32.Slices ![0, 0, 0, 0, 48, 0] S2x24x24x24x16x32
  slices_S2x24x24x24x64x32_S2x24x24x24x48x32_0_0_0_0_0_0 : S2x24x24x24x64x32.Slices ![0, 0, 0, 0, 0, 0] S2x24x24x24x48x32
  concatenates_S2x24x24x24x16x32_S2x24x24x24x48x32_S2x24x24x24x64x32_d4 : Shape.Concatenates [S2x24x24x24x16x32, S2x24x24x24x48x32] S2x24x24x24x64x32 4
  shapeCasts_S2x24x24x24x64x32_S2x24x24x24x2x1024 : S2x24x24x24x64x32.ShapeCasts S2x24x24x24x2x1024
  shapeCasts_S2x24x24x24x2x1024_S55296x1024 : S2x24x24x24x2x1024.ShapeCasts S55296x1024
  transposes_S1024x1024_S1024x1024_1_0 : S1024x1024.Transposes [1, 0] S1024x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S55296x1024_S2x24x24x24x2x1024 : S55296x1024.ShapeCasts S2x24x24x24x2x1024
  shapeCasts_S2x24x24x24x2x1024_S2x24x24x24x64x32 : S2x24x24x24x2x1024.ShapeCasts S2x24x24x24x64x32
  slices_S2x24x24x24x64x32_S2x24x24x24x48x32_0_0_0_0_16_0 : S2x24x24x24x64x32.Slices ![0, 0, 0, 0, 16, 0] S2x24x24x24x48x32
  slices_S2x24x24x24x64x32_S2x24x24x24x16x32_0_0_0_0_0_0 : S2x24x24x24x64x32.Slices ![0, 0, 0, 0, 0, 0] S2x24x24x24x16x32
  concatenates_S2x24x24x24x48x32_S2x24x24x24x16x32_S2x24x24x24x64x32_d4 : Shape.Concatenates [S2x24x24x24x48x32, S2x24x24x24x16x32] S2x24x24x24x64x32 4
  transposes_S2x24x24x24x64x32_S2x32x64x24x24x24_0_5_4_1_2_3 : S2x24x24x24x64x32.Transposes [0, 5, 4, 1, 2, 3] S2x32x64x24x24x24
  shapeCasts_S2x32x64x24x24x24_S2x32x96x96x96 : S2x32x64x24x24x24.ShapeCasts S2x32x96x96x96
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S55296x1024.size a
  hwx0_0 : ∀ i : grid0.Coords, EltTy.bits .f32 = 32 ∨ (Rect.block (s := S55296x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S55296x1024.size a
  hwx0_3 : ∀ i : grid0.Coords, EltTy.bits .f32 = 32 ∨ (Rect.block (s := S55296x1024) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v4) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x32x96x96x96 : Shape := ⟨5, ![2, 32, 96, 96, 96]⟩
abbrev S1024x1024 : Shape := ⟨2, ![1024, 1024]⟩
abbrev S1024 : Shape := ⟨1, ![1024]⟩
abbrev S2x32x64x24x24x24 : Shape := ⟨6, ![2, 32, 64, 24, 24, 24]⟩
abbrev S2x24x24x24x64x32 : Shape := ⟨6, ![2, 24, 24, 24, 64, 32]⟩
abbrev S2x24x24x24x16x32 : Shape := ⟨6, ![2, 24, 24, 24, 16, 32]⟩
abbrev S2x24x24x24x48x32 : Shape := ⟨6, ![2, 24, 24, 24, 48, 32]⟩
abbrev S2x24x24x24x2x1024 : Shape := ⟨6, ![2, 24, 24, 24, 2, 1024]⟩
abbrev S1x1x1x1x1x1024 : Shape := ⟨6, ![1, 1, 1, 1, 1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2x32x96x96x96, .f32⟩
  | .hbm, ⟨1, _⟩ => ⟨S1024x1024, .f32⟩
  | .hbm, ⟨2, _⟩ => ⟨S1024, .f32⟩
  | .hbm, ⟨3, _⟩ => ⟨S2x32x64x24x24x24, .f32⟩
  | .hbm, ⟨4, _⟩ => ⟨S2x24x24x24x64x32, .f32⟩
  | .hbm, ⟨5, _⟩ => ⟨S2x24x24x24x16x32, .f32⟩
  | .hbm, ⟨6, _⟩ => ⟨S2x24x24x24x48x32, .f32⟩
  | .hbm, ⟨7, _⟩ => ⟨S2x24x24x24x64x32, .f32⟩
  | .hbm, ⟨8, _⟩ => ⟨S2x24x24x24x2x1024, .f32⟩
  | .hbm, ⟨9, _⟩ => ⟨S2x24x24x24x2x1024, .f32⟩
  | .hbm, ⟨10, _⟩ => ⟨S1x1x1x1x1x1024, .f32⟩
  | .hbm, ⟨11, _⟩ => ⟨S2x24x24x24x2x1024, .f32⟩
  | .hbm, ⟨12, _⟩ => ⟨S2x24x24x24x2x1024, .f32⟩
  | .hbm, ⟨13, _⟩ => ⟨S2x24x24x24x64x32, .f32⟩
  | .hbm, ⟨14, _⟩ => ⟨S2x24x24x24x48x32, .f32⟩
  | .hbm, ⟨15, _⟩ => ⟨S2x24x24x24x16x32, .f32⟩
  | .hbm, ⟨16, _⟩ => ⟨S2x24x24x24x64x32, .f32⟩
  | .hbm, ⟨17, _⟩ => ⟨S2x32x64x24x24x24, .f32⟩
  | .hbm, ⟨18, _⟩ => ⟨S2x32x96x96x96, .f32⟩
  | _, _ => ⟨S2x32x96x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call1_v0 : Ref sig .tc := ⟨.hbm, 14, rfl⟩
abbrev main_call1_v1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  shapeCasts_S2x32x96x96x96_S2x32x64x24x24x24 : S2x32x96x96x96.ShapeCasts S2x32x64x24x24x24
  transposes_S2x32x64x24x24x24_S2x24x24x24x64x32_0_3_4_5_2_1 : S2x32x64x24x24x24.Transposes [0, 3, 4, 5, 2, 1] S2x24x24x24x64x32
  slices_S2x24x24x24x64x32_S2x24x24x24x16x32_0_0_0_0_48_0 : S2x24x24x24x64x32.Slices ![0, 0, 0, 0, 48, 0] S2x24x24x24x16x32
  slices_S2x24x24x24x64x32_S2x24x24x24x48x32_0_0_0_0_0_0 : S2x24x24x24x64x32.Slices ![0, 0, 0, 0, 0, 0] S2x24x24x24x48x32
  concatenates_S2x24x24x24x16x32_S2x24x24x24x48x32_S2x24x24x24x64x32_d4 : Shape.Concatenates [S2x24x24x24x16x32, S2x24x24x24x48x32] S2x24x24x24x64x32 4
  shapeCasts_S2x24x24x24x64x32_S2x24x24x24x2x1024 : S2x24x24x24x64x32.ShapeCasts S2x24x24x24x2x1024
  bcast_S1024_S1x1x1x1x1x1024_5 : S1024.BroadcastsInDim S1x1x1x1x1x1024 (![5] : Fin 1 → Fin S1x1x1x1x1x1024.rank)
  bcast_S1x1x1x1x1x1024_S2x24x24x24x2x1024_0_1_2_3_4_5 : S1x1x1x1x1x1024.BroadcastsInDim S2x24x24x24x2x1024 (![0, 1, 2, 3, 4, 5] : Fin 6 → Fin S2x24x24x24x2x1024.rank)
  shapeCasts_S2x24x24x24x2x1024_S2x24x24x24x64x32 : S2x24x24x24x2x1024.ShapeCasts S2x24x24x24x64x32
  slices_S2x24x24x24x64x32_S2x24x24x24x48x32_0_0_0_0_16_0 : S2x24x24x24x64x32.Slices ![0, 0, 0, 0, 16, 0] S2x24x24x24x48x32
  slices_S2x24x24x24x64x32_S2x24x24x24x16x32_0_0_0_0_0_0 : S2x24x24x24x64x32.Slices ![0, 0, 0, 0, 0, 0] S2x24x24x24x16x32
  concatenates_S2x24x24x24x48x32_S2x24x24x24x16x32_S2x24x24x24x64x32_d4 : Shape.Concatenates [S2x24x24x24x48x32, S2x24x24x24x16x32] S2x24x24x24x64x32 4
  transposes_S2x24x24x24x64x32_S2x32x64x24x24x24_0_5_4_1_2_3 : S2x24x24x24x64x32.Transposes [0, 5, 4, 1, 2, 3] S2x32x64x24x24x24
  shapeCasts_S2x32x64x24x24x24_S2x32x96x96x96 : S2x32x64x24x24x24.ShapeCasts S2x32x96x96x96
  dot_S2x24x24x24x2x1024_S1024x1024_S2x24x24x24x2x1024_5_1_01234_0_n_n_wf : DotDims.WF S2x24x24x24x2x1024 S1024x1024 S2x24x24x24x2x1024 [5] [1] [0, 1, 2, 3, 4] [0] [] []

variable [Facts₀]

def dot_S2x24x24x24x2x1024_S1024x1024_S2x24x24x24x2x1024_5_1_01234_0_n_n : DotDims S2x24x24x24x2x1024 S1024x1024 S2x24x24x24x2x1024 where
  lhsContracting := [5]
  rhsContracting := [1]
  lhsNonContracting := [0, 1, 2, 3, 4]
  rhsNonContracting := [0]
  lhsBatch := []
  rhsBatch := []
  wf := dot_S2x24x24x24x2x1024_S1024x1024_S2x24x24x24x2x1024_5_1_01234_0_n_n_wf

class Facts : Prop extends Facts₀ where

variable [Facts]
-- ==== Proof.LibMatmulPlain.lean ====
/-
  Two general facts about rank-2 blocks at the ideal values, stated for any extents.

  * A kernel's matrix product of an m×k block by a k×n block into the zero accumulator, read at entry (a, b), is the
    plain sum over the contracted coordinate c of A(a, c) · B(c, b), whatever contraction precision the operation
    carries: at the ideal values the product into zero and the host's `dot_general` are the same sum over the
    contraction index, and the library already reads the host's plain product as that sum.
  * A one-row block [1, n] broadcast down m rows, read at (a, b), is the row's entry at column b.
-/
import Idealize.ShloMosaic.PureOps.Ideal.Laws
import Idealize.ShloMosaic.Lib.ValueIdx
import Idealize.ShloMosaic.Lib.StackMember
import Idealize.ShloMosaic.Lib.Pipeline.Value

noncomputable section

open scoped BigOperators

namespace Cert.LibMatmulPlain

open Idealize.ShloMosaic Idealize.ShloMosaic.ValueIdx

/-- The product of an m×k block by a k×n block into the zero accumulator, at the ideal values, read at (a, b):
    Σ_c A(a, c) · B(c, b). The precision argument plays no part: the ideal product is exact. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec _ A B (ix2 a b)).symm.trans
      (StackMember.dotGeneral_plain_apply prec A B a b))

/-- A one-row block broadcast down the rows, read at (a, b), is the row at column b. -/
theorem rowBroadcast_apply {α : Type} {m n : Nat} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 0 b) := by
  refine broadcastTo_apply x h (ix2 a b) (ix2 0 b) fun ax => ?_
  match ax with
  | ⟨0, _⟩ => rfl
  | ⟨1, _⟩ =>
    show b.val = if n = 1 then 0 else b.val
    split
    · have := b.isLt; omega
    · rfl

end Cert.LibMatmulPlain

end
-- ==== Proof.BlockProduct.lean ====
/-
  One block of the windowed linear layer, at the ideal values.

  The layer sends a matrix of rows `A` (one row per window, 1024 features each), a square matrix `B` and a single
  bias row `r` to the matrix whose entry (n, o) is  Σ_k A(n, k) · B(k, o) + r(0, o).  `rowsLinear` is that function,
  for any number of rows.  The kernel's body computes exactly this on a block of 1024 rows: it narrows both operands
  to bf16 (at the ideal values a change of float format changes nothing), multiplies them into a zero accumulator (the
  plain sum over the contracted coordinate) and adds the bias row broadcast down the rows.  `body_apply` reads that
  term at one entry; it is stated over variables, so that it can be used at any block.
-/
import Idealize.ShloMosaic.PureOps.Ideal.Laws
import Idealize.ShloMosaic.Lib.ValueIdx
import Idealize.ShloMosaic.Lib.ValueIdxCoords
import Idealize.ShloMosaic.Lib.Pipeline.Value
import proofs.«109859_j56332791054554_1_alg».proof.Proof.LibMatmulPlain

noncomputable section

open scoped BigOperators

namespace Cert.RowsLinear

open Idealize.ShloMosaic Idealize.ShloMosaic.ValueIdx

/-- A square 1024 × 1024 matrix: a block of rows, and the weight matrix. -/
abbrev SBlk : Shape := ⟨2, ![1024, 1024]⟩
/-- The bias as a single row. -/
abbrev SRow : Shape := ⟨2, ![1, 1024]⟩

/-- Rows times a matrix plus a bias row: entry (n, o) is Σ_k A(n, k) · B(k, o) + r(0, o). -/
def rowsLinear {M : Nat} (A : FVec Ideal ⟨2, ![M, 1024]⟩ .f32) (B : FVec Ideal SBlk .f32) (r : FVec Ideal SRow .f32) :
    FVec Ideal ⟨2, ![M, 1024]⟩ .f32 :=
  fun j => (∑ k : Fin 1024, A (ix2 (j 0) k) * B (ix2 k (j 1))) + r (ix2 0 (j 1))

theorem rowsLinear_apply {M : Nat} (A : FVec Ideal ⟨2, ![M, 1024]⟩ .f32) (B : FVec Ideal SBlk .f32) (r : FVec Ideal SRow .f32)
    (n : Fin M) (o : Fin 1024) :
    rowsLinear A B r (ix2 n o) = (∑ k : Fin 1024, A (ix2 n k) * B (ix2 k o)) + r (ix2 0 o) := rfl

/-- The body's arithmetic on one block, read at entry (p, q): both operands narrowed to bf16 (the identity here),
    multiplied into the zero accumulator, the bias row added on every row. -/
theorem body_apply (D : DotDims SBlk SBlk SBlk) (hD : D = DotDims.plain 1024 1024 1024)
    (h1 : SBlk.ShapeCasts SBlk) (h2 : SRow.ShapeCasts SRow) (hb : FTy.bits .bf16 < FTy.bits .f32) (hbc : SRow.Broadcasts SBlk)
    (x0 x1 : FVec Ideal SBlk .f32) (x2 : FVec Ideal SRow .f32) (p q : Fin 1024) :
    addf (matmul D none (truncf .bf16 (shapeCast SBlk x0 h1) hb) (truncf .bf16 (shapeCast SBlk x1 h1) hb)
            (constant SBlk .f32 0x00000000#32))
         (broadcastTo SBlk (shapeCast SRow x2 h2) hbc) (ix2 p q)
      = (∑ k : Fin 1024, x0 (ix2 p k) * x1 (ix2 k q)) + x2 (ix2 0 q) := by
  subst hD
  rw [shapeCast_self, shapeCast_self, shapeCast_self, addf_apply, Cert.LibMatmulPlain.rowBroadcast_apply]
  congr 1
  exact Cert.LibMatmulPlain.matmul_plain_zero_apply none _ _ p q

end Cert.RowsLinear

end
-- ==== Proof.KernelRows.lean ====
/-
  What the one pallas_call leaves in its output array, at the ideal values.

  The call walks the 55296 rows of the flattened input 1024 at a time: at grid point t the first window holds rows
  1024·t … 1024·t + 1023, the weight matrix and the bias row are whole at every point, and the body writes back the
  block  Σ_k x(p, k) · w(k, q) + b(0, q)  of those rows.  That block is block t of ONE function of the three arrays as
  the region finds them — `rowsLinear` of them — because entry (p, q) of the block only reads row 1024·t + p of the
  input.  The 54 blocks tile the output array (row n lies in block n / 1024), so after the run the array is that function.
  Every step is stated for arbitrary arrays and blocks; the arrays the region finds are put in at the very end.
-/
import proofs.«109859_j56332791054554_1_alg».proof.Proof.Gen.KernelIdeal.Frame
import Idealize.ShloMosaic.Lib.Pipeline.Value
import proofs.«109859_j56332791054554_1_alg».proof.Proof.BlockProduct

noncomputable section

open scoped BigOperators

namespace Cert.KernelIdeal.Rows

open Cert.KernelIdeal Cert.KernelIdeal.Gen Idealize.ShloMosaic Idealize.ShloMosaic.TcCoe Idealize.SL.Sem
open Idealize.ShloMosaic.ValueIdx Cert.RowsLinear
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The body's stored value at entry (p, q) of a block: the row-by-column sum plus the bias at column q. -/
theorem pay_apply (x0 x1 : Vec Ideal S1024x1024 .f32) (x2 : Vec Ideal S1x1024 .f32) (p q : Fin 1024) :
    k0_pay1 x0 x1 x2 (ix2 p q) = (∑ k : Fin 1024, x0 (ix2 p k) * x1 (ix2 k q)) + x2 (ix2 0 q) := by
  unfold k0_pay1
  exact body_apply _ rfl _ _ _ _ x0 x1 x2 p q

/-- The printed index maps over the grid: the input and output blocks are block t of the rows, everything else block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row 1024·t + p is a row of the array. -/
theorem row_lt (t : Fin cfg0.N) (p : Fin 1024) : 1024 * t.val + p.val < 55296 := by
  have := t.isLt; have := p.isLt; have : cfg0.N = 54 := N_0; omega

/-- The input window's block at point t, of any array of rows, is its rows 1024·t …. -/
theorem read_rows (A : FVec Ideal S55296x1024 .f32) (t : Fin cfg0.N) (x : S1024x1024.Idx) (k : S55296x1024.Idx)
    (hk0 : (k 0).val = 1024 * t.val + (x 0).val) (hk1 : (k 1).val = (x 1).val) :
    ((cfg0.win 0).blk t).view.read (Elt Ideal) A x = A k := by
  obtain ⟨e0, e1, -⟩ := idx_facts t
  rw [View.read_apply]
  show A _ = A _
  congr 1
  funext a
  apply Fin.ext
  match a with
  | ⟨0, _⟩ => show win0_0.index t (0 : Fin 2) * 1024 + 1 * (x 0).val = (k 0).val; omega
  | ⟨1, _⟩ => show win0_0.index t (1 : Fin 2) * 1024 + 1 * (x 1).val = (k 1).val; omega

/-- The weights' block is the whole matrix at every point. -/
theorem read_weights (B : FVec Ideal S1024x1024 .f32) (t : Fin cfg0.N) (x : S1024x1024.Idx) :
    ((cfg0.win 1).blk t).view.read (Elt Ideal) B x = B x := by
  obtain ⟨-, -, e0, e1, -⟩ := idx_facts t
  rw [View.read_apply]
  show B _ = B _
  congr 1
  funext a
  apply Fin.ext
  match a with
  | ⟨0, _⟩ => show win0_1.index t (0 : Fin 2) * 1024 + 1 * (x 0).val = (x 0).val; omega
  | ⟨1, _⟩ => show win0_1.index t (1 : Fin 2) * 1024 + 1 * (x 1).val = (x 1).val; omega

/-- The bias' block is the whole row at every point. -/
theorem read_bias (r : FVec Ideal S1x1024 .f32) (t : Fin cfg0.N) (x : S1x1024.Idx) :
    ((cfg0.win 2).blk t).view.read (Elt Ideal) r x = r x := by
  obtain ⟨-, -, -, -, e0, e1, -⟩ := idx_facts t
  rw [View.read_apply]
  show r _ = r _
  congr 1
  funext a
  apply Fin.ext
  match a with
  | ⟨0, _⟩ => show win0_2.index t (0 : Fin 2) * 1 + 1 * (x 0).val = (x 0).val; omega
  | ⟨1, _⟩ => show win0_2.index t (1 : Fin 2) * 1024 + 1 * (x 1).val = (x 1).val; omega

/-- The output window's block at point t, of any array of rows, read at (p, q), is the array at row 1024·t + p. -/
theorem read_out (G : FVec Ideal S55296x1024 .f32) (t : Fin cfg0.N) (p q : Fin 1024) :
    ((cfg0.win 3).blk t).view.read (Elt Ideal) G (ix2 p q) = G (ix2 ⟨1024 * t.val + p.val, row_lt t p⟩ q) := by
  obtain ⟨-, -, -, -, -, -, e0, e1⟩ := idx_facts t
  rw [View.read_apply]
  show G _ = G _
  congr 1
  funext a
  apply Fin.ext
  match a with
  | ⟨0, _⟩ => show win0_3.index t (0 : Fin 2) * 1024 + 1 * p.val = 1024 * t.val + p.val; omega
  | ⟨1, _⟩ => show win0_3.index t (1 : Fin 2) * 1024 + 1 * q.val = q.val; omega

/-- What the body stores at point t, from the three windows' blocks of ANY arrays A, B, r, is block t of `rowsLinear A B r`. -/
theorem block_eq (A : FVec Ideal S55296x1024 .f32) (B : FVec Ideal S1024x1024 .f32) (r : FVec Ideal S1x1024 .f32) (t : Fin cfg0.N)
    (X0 X1 : Vec Ideal S1024x1024 .f32) (X2 : Vec Ideal S1x1024 .f32)
    (h0 : X0 = ((cfg0.win 0).blk t).view.read (Elt Ideal) A) (h1 : X1 = ((cfg0.win 1).blk t).view.read (Elt Ideal) B)
    (h2 : X2 = ((cfg0.win 2).blk t).view.read (Elt Ideal) r) :
    (cfg0.win 3).cut (grid0.coords t) (k0_pay1 X0 X1 X2) = ((cfg0.win 3).blk t).view.read (Elt Ideal) (rowsLinear A B r) := by
  funext j
  obtain ⟨p, q, rfl⟩ : ∃ (p q : Fin 1024), j = ix2 p q := ⟨j 0, j 1, eq_ix2 j⟩
  rw [read_out, rowsLinear_apply]
  refine (pay_apply X0 X1 X2 p q).trans ?_
  congr 1
  · refine Finset.sum_congr rfl fun k _ => ?_
    rw [h0, h1, read_rows A t (ix2 p k) (ix2 ⟨1024 * t.val + p.val, row_lt t p⟩ k) rfl rfl, read_weights]
  · rw [h2]; exact read_bias r t (ix2 0 q)

/-- The flattened input rows, the transposed weights and the bias row, as the region finds them. -/
abbrev rowsIn (c : Dev nD) : FVec Ideal S55296x1024 .f32 := V m c main_v4
abbrev weights (c : Dev nD) : FVec Ideal S1024x1024 .f32 := V m c main_v5
abbrev biasRow (c : Dev nD) : FVec Ideal S1x1024 .f32 := V m c main_v6

/-- What the output array ends holding: every row of the input times the weights, plus the bias row. -/
abbrev rowsOut (c : Dev nD) : FVec Ideal S55296x1024 .f32 := rowsLinear (rowsIn m c) (weights m c) (biasRow m c)

/-- What point t writes back is block t of `rowsOut`. -/
theorem flushed_eq (c : Dev nD) (t : Fin cfg0.N) :
    (dats m 0 c).flushed 3 t = ((cfg0.win 3).blk t).view.read (Elt Ideal) (rowsOut m c) := by
  show (cfg0.win 3).cut (grid0.coords t) ((dats m 0 c).after 3 t) = _
  rw [after0_3]
  unfold out0_3
  rw [View.canon_unit_zero hz]
  simp only [View.ld_unit_zero (S := S1024x1024) hz, View.ld_unit_zero (S := S1x1024) hz]
  exact block_eq (rowsIn m c) (weights m c) (biasRow m c) t (iblk m c 0 t) (iblk m c 1 t) (iblk m c 2 t) rfl rfl rfl

/-- An index of the output array is in point t's block iff each coordinate is in the block's range on its axis. -/
theorem mem_blk (t : Fin cfg0.N) (i : S55296x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v7).slice (win0_3.rect t)).set ↔ _
  rw [View.set_slice_whole, Rect.mem_set_unit]
  exact Iff.rfl

/-- Row n of the output lies in the block of point n / 1024. -/
theorem covered (i : S55296x1024.Idx) :
    ∃ t : Fin cfg0.N, (cfg0.win 3).flush t = true ∧ i ∈ ((cfg0.win 3).blk t).view.set := by
  have hi0 : (i 0).val < 55296 := (i 0).isLt
  have hi1 : (i 1).val < 1024 := (i 1).isLt
  have hN : cfg0.N = 54 := N_0
  refine ⟨⟨(i 0).val / 1024, by omega⟩, flush0_3 _, ?_⟩
  obtain ⟨-, -, -, -, -, -, e0, e1⟩ := idx_facts ⟨(i 0).val / 1024, by omega⟩
  rw [mem_blk]
  intro a
  match a with
  | ⟨0, _⟩ =>
    show win0_3.index _ (0 : Fin 2) * 1024 ≤ (i 0).val ∧ (i 0).val < win0_3.index _ (0 : Fin 2) * 1024 + 1024
    rw [e0]; show (i 0).val / 1024 * 1024 ≤ (i 0).val ∧ (i 0).val < (i 0).val / 1024 * 1024 + 1024; omega
  | ⟨1, _⟩ =>
    show win0_3.index _ (1 : Fin 2) * 1024 ≤ (i 1).val ∧ (i 1).val < win0_3.index _ (1 : Fin 2) * 1024 + 1024
    rw [e1]; omega

/-- The output array after the run. -/
theorem final (c : Dev nD) : (dats m 0 c).arrAt 3 cfg0.N = rowsOut m c :=
  (dats m 0 c).arrAt_eq_of_cover 3 (rowsOut m c) (fun t _ => flushed_eq m c t) covered

end Cert.KernelIdeal.Rows

end
-- ==== Proof.WindowLayout.lean ====
/-
  The index permutations around the windowed linear layer, stated once for both programs.

  The input x : [2, 32, 96, 96, 96] is read as [batch, channel, token, h', w', d'] with 64 tokens per patch, moved to
  [batch, h', w', d', token, channel], rolled by 16 along the token axis, and its 64 tokens grouped into 2 windows of
  32 tokens × 32 channels = 1024 features: `gatherWindows`.  After the layer the same steps are undone — ungroup, roll
  back by 16, move the axes back, restore the volume —: `scatterWindows`.  Neither does any arithmetic, and both
  programs apply exactly these two around their own form of the layer, so the certificate never opens them: it only
  needs that the two forms of the layer agree on every array of windows.
-/
import Idealize.ShloMosaic.PureOps.Ideal.Laws
import Idealize.ShloMosaic.Lib.ValueIdx

noncomputable section

namespace Cert.WindowLayout

open Idealize.ShloMosaic

abbrev SVol : Shape := ⟨5, ![2, 32, 96, 96, 96]⟩
abbrev SPatch : Shape := ⟨6, ![2, 32, 64, 24, 24, 24]⟩
abbrev STok : Shape := ⟨6, ![2, 24, 24, 24, 64, 32]⟩
abbrev STok16 : Shape := ⟨6, ![2, 24, 24, 24, 16, 32]⟩
abbrev STok48 : Shape := ⟨6, ![2, 24, 24, 24, 48, 32]⟩
/-- Two windows per patch, 1024 features each. -/
abbrev SWin : Shape := ⟨6, ![2, 24, 24, 24, 2, 1024]⟩

theorem cat_16_48 : Shape.Concatenates [STok16, STok48] STok 4 := by decide
theorem cat_48_16 : Shape.Concatenates [STok48, STok16] STok 4 := by decide

/-- Volume → windows: patches' tokens last-but-one, rolled forward by 16, grouped by 32. -/
def gatherWindows (x : FVec Ideal SVol .f32) : FVec Ideal SWin .f32 :=
  let tok : FVec Ideal STok .f32 :=
    transpose STok [0, 3, 4, 5, 2, 1] (shapeCast SPatch x (by decide)) (by decide)
  shapeCast SWin
    (concatenate STok 4
      [⟨STok16, extractStridedSlice STok16 ![0, 0, 0, 0, 48, 0] tok (by decide)⟩,
       ⟨STok48, extractStridedSlice STok48 ![0, 0, 0, 0, 0, 0] tok (by decide)⟩] cat_16_48)
    (by decide)

/-- Windows → volume: ungrouped, rolled back by 16, the axes and the volume restored. -/
def scatterWindows (y : FVec Ideal SWin .f32) : FVec Ideal SVol .f32 :=
  let tok : FVec Ideal STok .f32 := shapeCast STok y (by decide)
  shapeCast SVol
    (transpose SPatch [0, 5, 4, 1, 2, 3]
      (concatenate STok 4
        [⟨STok48, extractStridedSlice STok48 ![0, 0, 0, 0, 16, 0] tok (by decide)⟩,
         ⟨STok16, extractStridedSlice STok16 ![0, 0, 0, 0, 0, 0] tok (by decide)⟩] cat_48_16)
      (by decide))
    (by decide)

end Cert.WindowLayout

end
-- ==== Proof.LayerForms.lean ====
/-
  The two forms of the layer agree on every array of windows.

  The kernel flattens the array of windows P : [2, 24, 24, 24, 2, 1024] to a matrix of 55296 rows, multiplies it by the
  TRANSPOSED weights and adds the bias row, and reads the result back as an array of windows.  The reference contracts
  the last axis of P with the second axis of W directly and adds the bias along the last axis.  Window (a, h, w, d, g)
  is row  n = (((a·24 + h)·24 + w)·24 + d)·2 + g  of the flattened matrix, since flattening keeps row-major order and
  the last axis is kept whole; so at feature o both are  Σ_k P(a, h, w, d, g, k) · W(o, k) + b(o).
  No law of the extended reals is used beyond reading the same sum on both sides.
-/
import Idealize.ShloMosaic.PureOps.Ideal.Laws
import Idealize.ShloMosaic.Lib.ValueIdx
import Idealize.ShloMosaic.Lib.ValueIdxCoords
import Idealize.ShloMosaic.Lib.ValueIdxRank6
import Idealize.ShloMosaic.Lib.Pipeline.Value
import proofs.«109859_j56332791054554_1_alg».proof.Proof.BlockProduct
import proofs.«109859_j56332791054554_1_alg».proof.Proof.WindowLayout

noncomputable section

open scoped BigOperators

namespace Cert.WindowLayout

open Idealize.ShloMosaic Idealize.ShloMosaic.ValueIdx Cert.RowsLinear

/-- All windows as the rows of one matrix. -/
abbrev SRows : Shape := ⟨2, ![55296, 1024]⟩
abbrev SBias : Shape := ⟨1, ![1024]⟩

/-- The row of the flattened matrix that window (a, h, w, d, g) becomes. -/
def rowOf (a : Fin 2) (h w d : Fin 24) (g : Fin 2) : Fin 55296 :=
  ⟨(((a.val * 24 + h.val) * 24 + w.val) * 24 + d.val) * 2 + g.val, by
    have := a.isLt; have := h.isLt; have := w.isLt; have := d.isLt; have := g.isLt; omega⟩

/-- Flattening keeps row-major order: entry (row of (a, h, w, d, g), k) of the flattened matrix is P(a, h, w, d, g, k). -/
theorem flatten_apply (P : FVec Ideal SWin .f32) (hc : SWin.ShapeCasts SRows)
    (a : Fin 2) (h w d : Fin 24) (g : Fin 2) (k : Fin 1024) :
    shapeCast SRows P hc (ix2 (rowOf a h w d g) k) = P (ix6 a h w d g k) := by
  refine shapeCast_apply P hc _ _ ?_
  rw [Shape.rowMajor_val_six, Shape.rowMajor_val_two]
  simp only [rowOf, ix6_0, ix6_1, ix6_2, ix6_3, ix6_4, ix6_5, ix2_0, ix2_1, Matrix.cons_val_zero, Matrix.cons_val_one,
    Matrix.head_cons, Matrix.cons_val_two, Matrix.tail_cons, Matrix.cons_val_three, Matrix.cons_val_four]
  rfl

/-- The kernel's form of the layer (flatten, multiply by the transposed weights, add the bias row, unflatten) equals any
    array of windows R that holds Σ_k P(…, k) · W(o, k) + b(o) at (…, o). -/
theorem unflatten_rowsLinear_eq (P R : FVec Ideal SWin .f32) (W : FVec Ideal SBlk .f32) (b : FVec Ideal SBias .f32)
    (h1 : SWin.ShapeCasts SRows) (h2 : SBlk.Transposes [1, 0] SBlk) (h3 : SBias.ShapeCasts SRow) (h4 : SRows.ShapeCasts SWin)
    (hR : ∀ (a : Fin 2) (h w d : Fin 24) (g : Fin 2) (o : Fin 1024),
      R (ix6 a h w d g o) = (∑ k : Fin 1024, P (ix6 a h w d g k) * W (ix2 o k)) + b (ix1 o)) :
    shapeCast SWin (rowsLinear (shapeCast SRows P h1) (transpose SBlk [1, 0] W h2) (shapeCast SRow b h3)) h4 = R := by
  funext i
  obtain ⟨a, h, w, d, g, o, rfl⟩ : ∃ (a : Fin 2) (h w d : Fin 24) (g : Fin 2) (o : Fin 1024), i = ix6 a h w d g o :=
    ⟨i 0, i 1, i 2, i 3, i 4, i 5, eq_ix6 i⟩
  rw [hR]
  have hpos : (SRows.rowMajor (ix2 (rowOf a h w d g) o)).val = (SWin.rowMajor (ix6 a h w d g o)).val := by
    rw [Shape.rowMajor_val_six, Shape.rowMajor_val_two]
    simp only [rowOf, ix6_0, ix6_1, ix6_2, ix6_3, ix6_4, ix6_5, ix2_0, ix2_1, Matrix.cons_val_zero, Matrix.cons_val_one,
      Matrix.head_cons, Matrix.cons_val_two, Matrix.tail_cons, Matrix.cons_val_three, Matrix.cons_val_four]
    rfl
  rw [shapeCast_apply _ h4 (ix6 a h w d g o) (ix2 (rowOf a h w d g) o) hpos, rowsLinear_apply]
  congr 1
  · refine Finset.sum_congr rfl fun k _ => ?_
    rw [flatten_apply P h1 a h w d g k]
    congr 1
    refine transpose_apply [1, 0] W h2 (ix2 k o) (ix2 o k) fun ax => ?_
    match ax with
    | ⟨0, _⟩ => rfl
    | ⟨1, _⟩ => rfl
  · refine shapeCast_apply b h3 (ix2 0 o) (ix1 o) ?_
    rw [Shape.rowMajor_val_one, Shape.rowMajor_val_two]
    show o.val = (0 : Fin 1).val * 1024 + o.val
    simp

/-- The kernel's form of the layer on an array of windows: flatten, multiply by the transposed weights and add the bias
    row, unflatten. -/
def flatLayer (P : FVec Ideal SWin .f32) (W : FVec Ideal SBlk .f32) (b : FVec Ideal SBias .f32) : FVec Ideal SWin .f32 :=
  shapeCast SWin (rowsLinear (shapeCast SRows P (by decide)) (transpose SBlk [1, 0] W (by decide)) (shapeCast SRow b (by decide)))
    (by decide)

/-- It is any array of windows that holds Σ_k P(…, k) · W(o, k) + b(o) at (…, o). -/
theorem flatLayer_eq (P R : FVec Ideal SWin .f32) (W : FVec Ideal SBlk .f32) (b : FVec Ideal SBias .f32)
    (hR : ∀ (a : Fin 2) (h w d : Fin 24) (g : Fin 2) (o : Fin 1024),
      R (ix6 a h w d g o) = (∑ k : Fin 1024, P (ix6 a h w d g k) * W (ix2 o k)) + b (ix1 o)) :
    flatLayer P W b = R :=
  unflatten_rowsLinear_eq P R W b _ _ _ _ hR

end Cert.WindowLayout

end
-- ==== Proof.KernelRun.lean ====
/-
  The kernel's whole run, read at the ideal values.

  Before the call the host lines gather the input into windows and flatten them to rows, transpose the weights and
  turn the bias into a row: those are the three arrays the region finds.  After the call they read the output rows
  back as windows and scatter the windows back into the volume.  With the output array known (`Rows.final`), the result
  of @main is therefore the windows scattered back after the flattened form of the layer, `flatLayer`, applied to the
  gathered windows, the weights and the bias — as functions of the three arguments, which end unchanged.
-/
import proofs.«109859_j56332791054554_1_alg».proof.Proof.KernelRows
import proofs.«109859_j56332791054554_1_alg».proof.Proof.LayerForms
import Idealize.ShloMosaic.Lib.StableHlo.Run

noncomputable section

namespace Cert.KernelIdeal.Rows

open Cert.KernelIdeal Cert.KernelIdeal.Gen Idealize.ShloMosaic Idealize.ShloMosaic.TcCoe Idealize.SL.Sem
open Idealize.ShloMosaic.StableHlo
open Cert.RowsLinear Cert.WindowLayout

variable (m : (ℓ : Loc nD τ sig) → Buf (Elt Ideal) ℓ) (ρ : Dev nD → PrngReg)

theorem weights_transposes : SBlk.Transposes [1, 0] SBlk := by decide
theorem bias_casts : SBias.ShapeCasts SRow := by decide

/-- The rows the region finds: the argument's windows, flattened. -/
theorem rowsIn_eq (c : Dev nD) :
    rowsIn m c = shapeCast SRows (gatherWindows (m ((c : Thread nD τ).loc main_arg0))) (by decide) := by
  show V m c main_v4 = _
  dsimp only [V, V0]
  simp only [hostOps0, hostOps0_1, hostOps0_2, List.flatten_cons, List.flatten_nil, List.append_nil, List.cons_append,
    List.nil_append]
  after_results <;> (try simp only [TRef.ofBuf, TRef.toBuf, cast_eq]) <;> rfl

/-- The weights the region finds: the argument's, transposed. -/
theorem weights_eq (c : Dev nD) :
    weights m c = transpose SBlk [1, 0] (m ((c : Thread nD τ).loc main_arg1)) weights_transposes := by
  show V m c main_v5 = _
  dsimp only [V, V0]
  simp only [hostOps0, hostOps0_1, hostOps0_2, List.flatten_cons, List.flatten_nil, List.append_nil, List.cons_append,
    List.nil_append]
  after_results <;> (try simp only [TRef.ofBuf, TRef.toBuf, cast_eq]) <;> rfl

/-- The bias row the region finds: the argument as one row. -/
theorem biasRow_eq (c : Dev nD) :
    biasRow m c = shapeCast SRow (m ((c : Thread nD τ).loc main_arg2)) bias_casts := by
  show V m c main_v6 = _
  dsimp only [V, V0]
  simp only [hostOps0, hostOps0_1, hostOps0_2, List.flatten_cons, List.flatten_nil, List.append_nil, List.cons_append,
    List.nil_append]
  after_results <;> (try simp only [TRef.ofBuf, TRef.toBuf, cast_eq]) <;> rfl

/-- The output rows, as a function of the three arguments. -/
theorem rowsOut_eq (c : Dev nD) :
    shapeCast SWin (rowsOut m c) (by decide)
      = flatLayer (gatherWindows (m ((c : Thread nD τ).loc main_arg0))) (m ((c : Thread nD τ).loc main_arg1))
          (m ((c : Thread nD τ).loc main_arg2)) := by
  unfold flatLayer
  rw [← rowsIn_eq m c, ← weights_eq m c, ← biasRow_eq m c]

/-- The output array as the lines after the call find it. -/
theorem out_arr (c : Dev nD) :
    Pipeline.withArrays spec0 c (V0 m c) (fun w => (dats m 0 c).arrAt w cfg0.N) (Proc.devRef .tc main_v7) = rowsOut m c :=
  (Pipeline.withArrays_arr spec0 launch0.win.arr_inj c _ _ 3).trans (final m c)

/-- @main's result: the output rows read back as windows and scattered into the volume. -/
theorem result_eq (c : Dev nD) :
    Pipeline.afterTail₀ cfgs (dats m) 0 (V0 m) [hostOps1, hostOps1_1, hostOps1_2] c main_v12
      = scatterWindows (shapeCast SWin (rowsOut m c) (by decide)) := by
  unfold Pipeline.afterTail₀
  simp only [hostOps1, hostOps1_1, hostOps1_2, List.flatten_cons, List.flatten_nil, List.append_nil, List.cons_append,
    List.nil_append]
  after_results
  simp only [TRef.ofBuf, TRef.toBuf, cast_eq]
  exact congrArg (fun y : FVec Ideal SRows .f32 => scatterWindows (shapeCast SWin y (by decide))) (out_arr m c)

/-- The run: @main ends with its result at the scattered windows of the layer, the arguments unchanged. -/
theorem run : θ_run defs (onTc (τ := τ) (main (F := Ideal))) ⟨m, fun _ => 0, ρ⟩ fun r => ∀ c : Dev nD,
      r.2.mem ((c : Thread nD τ).loc main_v12)
        = scatterWindows (flatLayer (gatherWindows (m ((c : Thread nD τ).loc main_arg0))) (m ((c : Thread nD τ).loc main_arg1))
            (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v12 (Pipeline.mem_restRefs_of main_v12 (by decide) (by decide))).trans
        ((result_eq m c).trans (congrArg scatterWindows (rowsOut_eq m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Rows

end
-- ==== Proof.RefRead.lean ====
/-
  The reference, read: its result is the windows scattered back after ITS form of the layer, and that form holds, at
  window (a, h, w, d, g) and feature o,  Σ_k P(a, h, w, d, g, k) · W(o, k) + b(o)  of the gathered windows P — the
  contraction of the windows' last axis with the weights' second axis, plus the bias along the last axis.  So it is the
  flattened form of the layer the kernel computes (`Cert.WindowLayout.flatLayer_eq`).
-/
import proofs.«109859_j56332791054554_1_alg».proof.Defs
import proofs.«109859_j56332791054554_1_alg».proof.Proof.ReferenceRun
import proofs.«109859_j56332791054554_1_alg».proof.Proof.ReferenceRead
import proofs.«109859_j56332791054554_1_alg».proof.Proof.LayerForms

noncomputable section

open scoped BigOperators

namespace Cert.ReferenceIdeal.Layer

open Cert.ReferenceIdeal Cert.ReferenceIdeal.Gen Cert.ReferenceIdeal.Read
open Idealize.ShloMosaic Idealize.ShloMosaic.TcCoe Idealize.SL.Sem Idealize.ShloMosaic.ValueIdx
open Cert.WindowLayout Cert.RowsLinear

/-- The left operand's index at contraction coordinate k: the window's coordinates, then k. -/
theorem lidx_ix6 (a : Fin 2) (h w d : Fin 24) (g : Fin 2) (o k : Fin 1024) :
    lidx_main_v4 (ix6 a h w d g o) k = ix6 a h w d g k :=
  funext fun ax => Fin.ext (by
    match ax with
    | ⟨0, _⟩ => rfl
    | ⟨1, _⟩ => rfl
    | ⟨2, _⟩ => rfl
    | ⟨3, _⟩ => rfl
    | ⟨4, _⟩ => rfl
    | ⟨5, _⟩ => rfl)

/-- The right operand's: the output feature, then k. -/
theorem ridx_ix6 (a : Fin 2) (h w d : Fin 24) (g : Fin 2) (o k : Fin 1024) :
    ridx_main_v4 (ix6 a h w d g o) k = ix2 o k :=
  funext fun ax => Fin.ext (by
    match ax with
    | ⟨0, _⟩ => rfl
    | ⟨1, _⟩ => rfl)

/-- The bias is read at the output feature. -/
theorem bidx_ix6 (a : Fin 2) (h w d : Fin 24) (g : Fin 2) (o : Fin 1024) :
    idx_main_v5 (idx_main_v6 (ix6 a h w d g o)) = ix1 o :=
  funext fun ax => Fin.ext (by
    match ax with
    | ⟨0, _⟩ => rfl)

/-- The reference's layer at one entry. -/
theorem layer_apply (x0 : FVec Ideal SVol .f32) (x1 : FVec Ideal SBlk .f32) (x2 : FVec Ideal SBias .f32)
    (a : Fin 2) (h w d : Fin 24) (g : Fin 2) (o : Fin 1024) :
    val_main_v7 (F := Ideal) x0 x1 x2 (ix6 a h w d g o)
      = (∑ k : Fin 1024, val_main_v3 (F := Ideal) x0 (ix6 a h w d g k) * x1 (ix2 o k)) + x2 (ix1 o) := by
  rw [val_main_v7_apply, val_main_v4_apply, val_main_v6_apply, val_main_v5_apply, bidx_ix6]
  show (∑ k : Fin 1024, _) + _ = _
  congr 1
  refine Finset.sum_congr rfl fun k _ => ?_
  rw [lidx_ix6, ridx_ix6]

/-- The reference's result: the gathered windows through the flattened form of the layer, scattered back. -/
theorem result_eq (x0 : FVec Ideal SVol .f32) (x1 : FVec Ideal SBlk .f32) (x2 : FVec Ideal SBias .f32) :
    val_main_v11 (F := Ideal) x0 x1 x2 = scatterWindows (flatLayer (gatherWindows x0) x1 x2) := by
  show scatterWindows (val_main_v7 (F := Ideal) x0 x1 x2) = _
  exact congrArg scatterWindows (flatLayer_eq (gatherWindows x0) _ x1 x2 (layer_apply x0 x1 x2)).symm

end Cert.ReferenceIdeal.Layer

end
-- ==== Proof.lean ====
/-
  The windowed linear layer: a Pallas matmul-plus-bias over flattened windows against jnp's einsum, over the reals.

  Both programs gather the volume x : [2, 32, 96, 96, 96] into windows of 1024 features (a reshape, a transpose, a roll
  by 16 tokens and a grouping: no arithmetic), apply a dense layer  y(…, o) = Σ_k xg(…, k) · W(o, k) + b(o)  to every
  window, and scatter the windows back (the same steps undone).  The reference applies the layer as one contraction of
  the windows' last axis with W's second axis.  The kernel flattens the windows to 55296 rows, multiplies the rows 1024
  at a time by the transposed weights (narrowed to bf16, which at the ideal values changes nothing) into a zero
  accumulator, adds the bias row, and reads the rows back as windows.

  At the ideal values the two are the same function of the arguments: flattening keeps row-major order, so window
  (a, h, w, d, g) is row (((a·24 + h)·24 + w)·24 + d)·2 + g, and entry (row, o) of the kernel's product is the very sum
  the contraction has at (a, h, w, d, g, o) (`Cert.WindowLayout.flatLayer_eq`); the gathering before and the scattering
  after are one term on both sides and are never opened.  No law of the extended reals beyond reading the same sum is
  used, so the precondition (finite inputs) is not needed for the values.

  Modules: BlockProduct (one block's arithmetic), KernelRows (the call's output array: each point writes a block of one
  whole-array function, the blocks tile the array), KernelRun (the host lines around the call, the run), WindowLayout and
  LayerForms (gather / scatter, and the two forms of the layer), RefRead (the reference read the same way).
-/
import proofs.«109859_j56332791054554_1_alg».proof.Defs
import proofs.«109859_j56332791054554_1_alg».proof.Proof.Gen.Kernel
import proofs.«109859_j56332791054554_1_alg».proof.Proof.Gen.Kernel.Skeleton
import proofs.«109859_j56332791054554_1_alg».proof.Proof.Gen.Kernel.Launch
import proofs.«109859_j56332791054554_1_alg».proof.Proof.Gen.Kernel.Points
import proofs.«109859_j56332791054554_1_alg».proof.Proof.Gen.Kernel.Frame
import proofs.«109859_j56332791054554_1_alg».proof.Proof.Gen.KernelIdeal
import proofs.«109859_j56332791054554_1_alg».proof.Proof.Gen.KernelIdeal.Skeleton
import proofs.«109859_j56332791054554_1_alg».proof.Proof.Gen.KernelIdeal.Launch
import proofs.«109859_j56332791054554_1_alg».proof.Proof.Gen.KernelIdeal.Points
import proofs.«109859_j56332791054554_1_alg».proof.Proof.Gen.KernelIdeal.Frame
import proofs.«109859_j56332791054554_1_alg».proof.Proof.Gen.ReferenceIdeal
import proofs.«109859_j56332791054554_1_alg».proof.Proof.Gen.Pre_finite_inputs
import proofs.«109859_j56332791054554_1_alg».proof.Proof.KernelRun
import proofs.«109859_j56332791054554_1_alg».proof.Proof.RefRead
import Idealize.ShloMosaic.Adequacy
import Idealize.ShloMosaic.Init

noncomputable section

namespace Cert.Proof

open Idealize.ShloMosaic Idealize.ShloMosaic.TcCoe Idealize.SL.Sem
open Cert.WindowLayout

/-- The word-level kernel runs, faults nowhere and keeps its arguments: the generated frame. -/
theorem frame_kernel : Cert.frame_Kernel := fun m ρ _ => Cert.Kernel.Gen.frame m ρ

/-- The same for the idealized kernel. -/
theorem frame_kernelIdeal : Cert.frame_KernelIdeal := fun m ρ _ => Cert.KernelIdeal.Gen.frame m ρ

/-- The reference is host operations only: its generated run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing in this kernel. -/
theorem preserves : Cert.preserves_Kernel_KernelIdeal := trivial

/-- Both idealized programs end with the windows of the layer scattered back: the kernel by its run, the reference by
    its generated run read through `Cert.ReferenceIdeal.Layer.result_eq`. -/
theorem algebraic : Cert.algebraic_KernelIdeal_ReferenceIdeal := by
  intro m ρ m' ρ' _ hagree
  refine ⟨fun c => scatterWindows (flatLayer (gatherWindows (m ((c : Thread Cert.KernelIdeal.nD Cert.KernelIdeal.τ).loc Cert.KernelIdeal.main_arg0)))
      (m ((c : Thread Cert.KernelIdeal.nD Cert.KernelIdeal.τ).loc Cert.KernelIdeal.main_arg1))
      (m ((c : Thread Cert.KernelIdeal.nD Cert.KernelIdeal.τ).loc Cert.KernelIdeal.main_arg2))),
    Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.Layer.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
